-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S1600000x48 : Shape := ⟨2, ![1600000, 48]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel

variable [Facts]

def fn {F : FTy → Type} [FloatOps F] (main_arg0 : IVec S1600000 32) (main_arg1 : IVec S1600000 32) (main_arg2 : FVec F S1600000x48 .f32) : IVec S_ 1 :=
  let main_v0 : FVec F S1600000x48 .f32 := Host.absf main_arg2
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  main_v3
-- ==== Kernel.lean ====
abbrev S1600000 : Shape := ⟨1, ![1600000]⟩
abbrev S1600000x48 : Shape := ⟨2, ![1600000, 48]⟩
abbrev S_ : Shape := ⟨0, ![]⟩
abbrev S100000 : Shape := ⟨1, ![100000]⟩
abbrev S1600000x1 : Shape := ⟨2, ![1600000, 1]⟩
abbrev S8000x48 : Shape := ⟨2, ![8000, 48]⟩
abbrev S8000x1 : Shape := ⟨2, ![8000, 1]⟩

abbrev nBuf : Space → Nat
  | .hbm => 35
  | .vmem => 6
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000x48, .f32⟩
  | .hbm, ⟨3, _⟩ => ⟨S_, .i32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S_, .i32⟩
  | .hbm, ⟨18, _⟩ => ⟨S1600000, .i32⟩
  | .hbm, ⟨19, _⟩ => ⟨S100000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .i32⟩
  | .hbm, ⟨29, _⟩ => ⟨S1600000, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S1600000x48, .f32⟩
  | .local _ .vmem, ⟨0, _⟩ => ⟨S8000x48, .f32⟩
  | .local _ .vmem, ⟨1, _⟩ => ⟨S8000x48, .f32⟩
  | .local _ .vmem, ⟨2, _⟩ => ⟨S8000x1, .f32⟩
  | .local _ .vmem, ⟨3, _⟩ => ⟨S8000x1, .f32⟩
  | .local _ .vmem, ⟨4, _⟩ => ⟨S8000x48, .f32⟩
  | .local _ .vmem, ⟨5, _⟩ => ⟨S8000x48, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x48 : S8000x1.Broadcasts S8000x48
  inb_S8000x48_S8000x48_0_0 : ∀ a, (![0, 0] : Fin 2 → Nat) a + S8000x48.size a ≤ S8000x48.size a
  h_S8000x48 : 0 < S8000x48.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x48.size a ≤ S1600000x48.size a
  hwx0_0 : ∀ i : grid0.Coords, EltTy.bits .f32 = 32 ∨ (Rect.block (s := S1600000x48) S8000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x48.size a ≤ S1600000x48.size a
  hwx0_2 : ∀ i : grid0.Coords, EltTy.bits .f32 = 32 ∨ (Rect.block (s := S1600000x48) S8000x48.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

abbrev win0_0 : Pipeline.Window sig grid0 :=
  Pipeline.Window.ofSpec (Memref.whole main_arg2) S8000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000 : Shape := ⟨1, ![1600000]⟩
abbrev S1600000x48 : Shape := ⟨2, ![1600000, 48]⟩
abbrev S_ : Shape := ⟨0, ![]⟩
abbrev S100000 : Shape := ⟨1, ![100000]⟩
abbrev S1600000x1 : Shape := ⟨2, ![1600000, 1]⟩

abbrev nBuf : Space → Nat
  | .hbm => 36
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000x48, .f32⟩
  | .hbm, ⟨3, _⟩ => ⟨S_, .i32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S_, .i32⟩
  | .hbm, ⟨18, _⟩ => ⟨S1600000, .i32⟩
  | .hbm, ⟨19, _⟩ => ⟨S100000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .i32⟩
  | .hbm, ⟨29, _⟩ => ⟨S1600000, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S1600000x48, .f32⟩
  | .hbm, ⟨35, _⟩ => ⟨S1600000x48, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

class Facts : Prop extends Facts₀ where

variable [Facts]
-- ==== Proof.LibColumn.lean ====
/-
  A vector laid out as a one-column matrix, read at an index.

  Reshaping an array of `a` entries to `a` rows of one entry each moves nothing: row-major, entry `(i, u)` of the
  column sits at position `i * 1 + u`, and the unit coordinate `u` can only be `0`, so that position is `i`, where
  entry `i` of the vector sits. Stated with both indices built from their coordinates, so that the lemma applies
  to a printed reshape by unification.
-/
import Idealize.ShloMosaic.Lib.ValueLayout

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The same at an arbitrary index `j` of the column: it reads the operand at `j`'s row. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]
  exact shapeCast_a_a1_apply x h (j 0) (j 1)

end Cert.LibColumn

end
-- ==== Proof.ScaleRows.lean ====
/-
  The function both programs compute, as one function of a weight vector and the message array.

  Every edge `e` has a weight `w e` (here: the reciprocal of how many edges share `e`'s target node, but nothing in
  this module depends on what the weight is), and row `e` of the message array is scaled by it:
  entry `(e, d)` of the result is `msg (e, d) * w e`. The product is the float instance's own, so the definition
  reads the same at every instance; at the ideal instance it is the product of extended reals.
-/
import Idealize.ShloMosaic.PureOps.Ideal
import Idealize.ShloMosaic.Lib.ValueIdx

noncomputable section

namespace Cert.ScaleRows

open Idealize.ShloMosaic Idealize.ShloMosaic.ValueIdx

variable {F : FTy → Type} [FloatOps F]

/-- Row `e` of `msg` times the `e`-th weight: entry `(e, d)` is `msg (e, d) * w e`. -/
def scaleRows (w : FVec F ⟨1, ![1600000]⟩ .f32) (msg : FVec F ⟨2, ![1600000, 48]⟩ .f32) :
    FVec F ⟨2, ![1600000, 48]⟩ .f32 :=
  fun i => FloatOps.mulf (msg i) (w (ix1 (i 0)))

theorem scaleRows_apply (w : FVec F ⟨1, ![1600000]⟩ .f32) (msg : FVec F ⟨2, ![1600000, 48]⟩ .f32)
    (i : (⟨2, ![1600000, 48]⟩ : Shape).Idx) : scaleRows w msg i = FloatOps.mulf (msg i) (w (ix1 (i 0))) := rfl

end Cert.ScaleRows

end
-- ==== Proof.KernelRows.lean ====
/-
  The kernel, read: its result array is the message array with each row scaled by that row's weight.

  Before the region the kernel's host operations compute the weight vector `w` exactly as the reference does
  (operation for operation the same terms) and lay it out as a column `[E, 1]`. The region walks the 200 blocks of
  8000 rows: at block `t` it loads rows `8000 t … 8000 t + 7999` of the message array and of the column, repeats the
  column's block along the 48 features and multiplies entrywise, and writes the product back to the same rows of the
  result. So what block `t` writes back is block `t` of `scaleRows w msg`; the 200 blocks tile the array (row `r`
  is in block `r / 8000`), hence the result array is `scaleRows w msg`.
-/
import proofs.«117189_j89386859364991_1_alg».proof.Proof.Gen.KernelIdeal.Value
import proofs.«117189_j89386859364991_1_alg».proof.Proof.Gen.ReferenceIdeal.Read
import proofs.«117189_j89386859364991_1_alg».proof.Proof.LibColumn
import proofs.«117189_j89386859364991_1_alg».proof.Proof.ScaleRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Value
open Idealize.ShloMosaic.ValueIdx Cert.ScaleRows

variable {F : FTy → Type} [FloatOps F]
variable (m : (ℓ : Loc nD τ sig) → Buf (Elt F) ℓ) (ρ : Dev nD → PrngReg)

/-- The weight vector, one entry per edge, as a function of the target array: the reference's own stage, which the
    kernel's host operations before the region repeat term for term. -/
abbrev weight (c : Dev nD) : FVec F S1600000 .f32 :=
  Cert.ReferenceIdeal.Read.val_main_v19 (F := F) (m ((c : Thread nD τ).loc main_arg1))

set_option maxHeartbeats 2000000 in
/-- What the region finds in the column array: the weight vector reshaped to `[E, 1]`. -/
theorem column_eq (c : Dev nD) :
    (V m c main_v20 : S1600000x1.Idx → Elt F .f32) = shapeCast S1600000x1 (weight m c) shapeCasts_S1600000_S1600000x1 := by
  dsimp only [V]
  simp only [hostOps0, hostOps0_1, hostOps0_2, List.flatten_cons, List.flatten_nil, List.append_nil, List.cons_append,
    List.nil_append]
  after_results_simp <;> rfl

/-! ## One block -/

theorem hz : (![0, 0] : Fin 2 → Nat) = fun _ => 0 := funext fun a => by fin_cases a <;> rfl

/-- What the body leaves in the output block, entry by entry: the message block's entry `(r, d)` times the column
    block's entry `(r, 0)` — the column repeated along the features, then the entrywise product. -/
theorem out_apply (x0 : Vec F S8000x48 .f32) (x1 : Vec F S8000x1 .f32) (y : S8000x48.Idx) :
    out0_2 x0 x1 y = FloatOps.mulf (x0 y) (x1 (ix2 (n0 := 8000) (y 0) (0 : Fin 1))) := by
  unfold out0_2
  rw [canon2_eq]
  show FloatOps.mulf (View.ld x0 r0_1 (ix2_0 y)) (View.ld x1 r0_0 (ix2_1 y)) = _
  rw [View.ld_unit_zero (S := S8000x48) hz, View.ld_unit_zero (S := S8000x1) hz]
  have e0 : ix2_0 y = y := funext fun a => match a with | ⟨0, _⟩ => rfl | ⟨1, _⟩ => rfl
  have e1 : ix2_1 y = ix2 (n0 := 8000) (y 0) (0 : Fin 1) := funext fun a => match a with | ⟨0, _⟩ => rfl | ⟨1, _⟩ => rfl
  rw [e0, e1]

/-- The printed index maps, decided over the 200 grid points: at point `t` every window is on row block `t`,
    column block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `scaleRows` of the weight vector and the message array as the
    region finds it: the three windows' blocks at `t` are the same rows, and the column's row `r` is the weight of
    edge `r`. -/
theorem flushed_eq (c : Dev nD) (t : Fin cfg0.N) :
    (dats m 0 c).flushed 2 t
      = ((cfg0.win 2).blk t).view.read (Elt F) (scaleRows (weight m c) (V m c main_arg2)) := by
  rw [flushed2]
  obtain ⟨a0, a1, b0, b1, o0, o1⟩ := idx_facts t
  funext j
  show out0_2 (iblk m c 0 t) (iblk m c 1 t) j
    = scaleRows (weight m c) (V m c main_arg2) (((cfg0.win 2).blk t).view.emb j)
  refine (out_apply (iblk m c 0 t) (iblk m c 1 t) j).trans ?_
  show FloatOps.mulf (V m c main_arg2 (((cfg0.win 0).blk t).view.emb j))
      (V m c main_v20 (((cfg0.win 1).blk t).view.emb (ix2 (n0 := 8000) (j 0) (0 : Fin 1))))
    = FloatOps.mulf (V m c main_arg2 (((cfg0.win 2).blk t).view.emb j))
      (weight m c (ix1 ((((cfg0.win 2).blk t).view.emb j) 0)))
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 48 + 1 * (j 1).val = win0_2.index t (1 : Fin 2) * 48 + 1 * (j 1).val; omega
  have h1 : V m c main_v20 (((cfg0.win 1).blk t).view.emb (ix2 (n0 := 8000) (j 0) (0 : Fin 1)))
      = weight m c (ix1 ((((cfg0.win 2).blk t).view.emb j) 0)) := by
    refine (congrFun (column_eq m c) _).trans ?_
    refine (Cert.LibColumn.shapeCast_a_a1_apply' _ _ _).trans ?_
    refine congrArg (fun q => weight m c (ix1 q)) (Fin.ext ?_)
    show win0_1.index t (0 : Fin 2) * 8000 + 1 * (j 0).val = win0_2.index t (0 : Fin 2) * 8000 + 1 * (j 0).val
    omega
  rw [h0, h1]

/-! ## The blocks tile the array -/

/-- An index of the array is in point `t`'s block iff each coordinate is in the block's range on its axis. -/
theorem mem_blk (t : Fin cfg0.N) (i : S1600000x48.Idx) :
    i ∈ ((cfg0.win 2).blk t).view.set ↔ ∀ a : Fin 2, win0_2.index t a * S8000x48.size a ≤ (i a).val
      ∧ (i a).val < win0_2.index t a * S8000x48.size a + S8000x48.size a := by
  show i ∈ ((View.whole main_v21).slice (win0_2.rect t)).set ↔ _
  rw [View.set_slice_whole, Rect.mem_set_unit]
  exact Iff.rfl

/-- Every entry `(r, d)` of the result array is written by some point: the point `r / 8000`. -/
theorem cover (i : S1600000x48.Idx) :
    ∃ t : Fin cfg0.N, (cfg0.win 2).flush t = true ∧ i ∈ ((cfg0.win 2).blk t).view.set := by
  have hi0 : (i 0).val < 1600000 := (i 0).isLt
  have hi1 : (i 1).val < 48 := (i 1).isLt
  have hN : cfg0.N = 200 := N_0
  have hlt : (i 0).val / 8000 < cfg0.N := by rw [hN]; omega
  obtain ⟨-, -, -, -, o0, o1⟩ := idx_facts ⟨(i 0).val / 8000, hlt⟩
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val
      ∧ (i 0).val < win0_2.index ⟨(i 0).val / 8000, hlt⟩ (0 : Fin 2) * 8000 + 8000
    rw [o0]
    show (i 0).val / 8000 * 8000 ≤ (i 0).val ∧ (i 0).val < (i 0).val / 8000 * 8000 + 8000
    omega
  | ⟨1, _⟩ =>
    show win0_2.index ⟨(i 0).val / 8000, hlt⟩ (1 : Fin 2) * 48 ≤ (i 1).val
      ∧ (i 1).val < win0_2.index ⟨(i 0).val / 8000, hlt⟩ (1 : Fin 2) * 48 + 48
    rw [o1]
    omega

/-! ## The array, and the run -/

/-- THE RESULT ARRAY after the run: every row of the message argument scaled by its weight. -/
theorem final (c : Dev nD) :
    (dats m 0 c).arrAt 2 cfg0.N = scaleRows (weight m c) (m ((c : Thread nD τ).loc main_arg2)) :=
  ((dats m 0 c).arrAt_eq_of_cover 2 (scaleRows (weight m c) (V m c main_arg2)) (fun t _ => flushed_eq m c t) cover).trans
    (congrArg (scaleRows (weight m c)) (V_main_arg2 m c))

/-- The kernel's run, read: the result at `scaleRows` of the weight vector and the message argument, the
    arguments unchanged. -/
theorem run : θ_run defs (onTc (τ := τ) (main (F := F))) ⟨m, fun _ => 0, ρ⟩ fun r => ∀ c : Dev nD,
      r.2.mem ((c : Thread nD τ).loc main_v21) = scaleRows (weight m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Rows

end
-- ==== Proof.RefRows.lean ====
/-
  The reference, read: its result is the message array with each row scaled by that row's weight.

  The reference ends in three steps over the weight vector `w` (its stage `%19`, one weight per edge): `w` laid out
  as a column `[E, 1]`, the column repeated along the 48 features to `[E, 48]`, and the entrywise product with the
  message array. Read at an index `(e, d)`: the repeated column holds the column's entry `(e, 0)`, which is `w e`,
  so the result's entry is `msg (e, d) * w e`. No property of `w` is used.
-/
import proofs.«117189_j89386859364991_1_alg».proof.Proof.Gen.ReferenceIdeal.Read
import proofs.«117189_j89386859364991_1_alg».proof.Proof.ScaleRows

noncomputable section

namespace Cert.ReferenceIdeal.RefRows

open Cert.ReferenceIdeal Cert.ReferenceIdeal.Gen Cert.ReferenceIdeal.Read
open Idealize.ShloMosaic Idealize.ShloMosaic.ValueIdx Cert.ScaleRows

variable {F : FTy → Type} [FloatOps F]

/-- Through the two broadcasts, entry `(e, d)` of the repeated column comes from entry `e` of the weight vector. -/
theorem row_of (i : S1600000x48.Idx) : idx_main_v20 (idx_main_v21 i) = ix1 (i 0) :=
  funext fun a => match a with | ⟨0, _⟩ => rfl

/-- The reference's result is `scaleRows` of its own weight stage and the message argument. -/
theorem result_eq (x1 : (⟨S1600000, .i32⟩ : BufTy).Contents (Elt F)) (x2 : (⟨S1600000x48, .f32⟩ : BufTy).Contents (Elt F)) :
    val_main_v22 (F := F) x1 x2 = scaleRows (val_main_v19 (F := F) x1) x2 := by
  funext i
  rw [val_main_v22_apply, val_main_v21_apply, val_main_v20_apply, row_of]
  rfl

end Cert.ReferenceIdeal.RefRows

end
-- ==== Proof.lean ====
/-
  Inverse in-degree weighting of edge messages: the kernel against its reference, over the extended reals.

  Both programs take an edge list's target nodes `target : i32[E]` and per-edge messages `msg : f32[E, 48]`
  (`E` = 1600000) and return `msg` with row `e` multiplied by `w e = 1 / count(target = target e)`. The weight
  vector `w` is computed by the same host operations in both (a histogram of the targets by a scatter-add of ones, the
  histogram read back at each edge's target by a gather, the conversion to float, the quotient `1 / ·`): the two
  texts are the same terms, so no property of `w` — not what the histogram counts, not whether a count is zero — is
  used anywhere; `w` stays an opaque function of `target`.

  What differs is the last step. The reference lays `w` out as a column, repeats it along the 48 features and
  multiplies entrywise (`RefRows.result_eq`). The kernel reshapes `w` to a column `[E, 1]` and runs a 200-point
  grid over blocks of 8000 rows, each point multiplying its message block by its column block repeated along the
  features; the blocks tile the array (`KernelRows.final`). Entry `(e, d)` of either result is
  `msg (e, d) * w e` (`ScaleRows.scaleRows`): one product of the same two numbers, so the equality needs no
  algebraic law and no finiteness of the inputs.

  The three frames are the generated ones (the reference's is its generated run with the result dropped), and the
  idealization rewrote nothing, so `preserves` is `True`.
-/
import proofs.«117189_j89386859364991_1_alg».proof.Defs
import proofs.«117189_j89386859364991_1_alg».proof.Proof.Gen.Kernel
import proofs.«117189_j89386859364991_1_alg».proof.Proof.Gen.Kernel.Skeleton
import proofs.«117189_j89386859364991_1_alg».proof.Proof.Gen.Kernel.Launch
import proofs.«117189_j89386859364991_1_alg».proof.Proof.Gen.Kernel.Points
import proofs.«117189_j89386859364991_1_alg».proof.Proof.Gen.Kernel.Frame
import proofs.«117189_j89386859364991_1_alg».proof.Proof.Gen.KernelIdeal
import proofs.«117189_j89386859364991_1_alg».proof.Proof.Gen.KernelIdeal.Skeleton
import proofs.«117189_j89386859364991_1_alg».proof.Proof.Gen.KernelIdeal.Launch
import proofs.«117189_j89386859364991_1_alg».proof.Proof.Gen.KernelIdeal.Points
import proofs.«117189_j89386859364991_1_alg».proof.Proof.Gen.KernelIdeal.Frame
import proofs.«117189_j89386859364991_1_alg».proof.Proof.Gen.ReferenceIdeal
import proofs.«117189_j89386859364991_1_alg».proof.Proof.Gen.Pre_finite_inputs
import proofs.«117189_j89386859364991_1_alg».proof.Proof.Gen.KernelIdeal.Value
import proofs.«117189_j89386859364991_1_alg».proof.Proof.Gen.ReferenceIdeal.Run
import proofs.«117189_j89386859364991_1_alg».proof.Proof.Gen.ReferenceIdeal.Read
import proofs.«117189_j89386859364991_1_alg».proof.Proof.KernelRows
import proofs.«117189_j89386859364991_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both runs end with the result at `scaleRows w msg`, `w` the one weight
    stage of the one target array: the kernel's by its blocks (`KernelRows.run`), the reference's by reading its last
    three operations at an index (`RefRows.result_eq`). -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2]
  exact (Cert.ReferenceIdeal.Read.val_main_v22_eq _ _).trans (Cert.ReferenceIdeal.RefRows.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
